-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x4096, .f32⟩
  | .hbm, ⟨6, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)

variable [Facts₀]

class Facts : Prop extends Facts₀ where

variable [Facts]
-- ==== Proof.RowNormalize.lean ====
/-
  Row-wise normalisation of exponentials over the extended reals, away from any program.

  For an array `x` of shape [16384, 4096], write `e i = exp (x i)` and `s r = ∑ k, e (r, k)` for the sum along row `r`.
  Two arrangements of the same quotient occur:
    * `scaled x i   = e i * (1 / s (i 0))`  — the reciprocal of the row sum taken once, then multiplied in;
    * `quotient x i = e i / (0 + s (i 0))`  — each entry divided by the row sum (a fold that starts from zero).
  On the extended reals the two differ at corners (a row of `-∞` has `s = 0`: `0 * (1 / 0) = 0 * ⊤ = 0` against the
  junk value of `0 / 0`), so the law below asks that every entry of `x` be a real number. Then every `e i` is a positive
  real, `s r` is a positive real — in particular nonzero —, division by it is multiplication by its reciprocal, and the two
  arrangements agree: `e * (1 * s⁻¹) = e * s⁻¹`.
-/
import Idealize.ShloMosaic.PureOps.Ideal
import Idealize.ShloMosaic.PureOps.Ideal.Laws
import Idealize.ShloMosaic.PureOps.IdealRules
import Idealize.ShloMosaic.Lib.ValueIdx

noncomputable section

namespace Cert.RowNormalize

open Idealize.ShloMosaic Idealize.ShloMosaic.ValueIdx
open scoped BigOperators

/-- The shape of the array: 16384 rows of 4096 entries. -/
abbrev Arr : Shape := ⟨2, ![16384, 4096]⟩

/-- The sum of the exponentials along the row of index `i`. -/
def rowSum (x : Arr.Idx → EReal) (i : Arr.Idx) : EReal := ∑ k : Fin 4096, Ideal.exp (x (ix2 (i 0) k))

/-- Each exponential times the reciprocal of its row's sum. -/
def scaled (x : Arr.Idx → EReal) : Arr.Idx → EReal := fun i => Ideal.exp (x i) * Ideal.div 1 (rowSum x i)

/-- Each exponential divided by its row's sum, the sum folded from zero. -/
def quotient (x : Arr.Idx → EReal) : Arr.Idx → EReal := fun i => Ideal.div (Ideal.exp (x i)) (0 + rowSum x i)

/-- A finite sum of real numbers, each read as an extended real, is the real sum read as an extended real. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Over real entries a row's sum of exponentials is a positive real number. -/
theorem rowSum_real (x : Arr.Idx → EReal) (r : Arr.Idx → ℝ) (hr : ∀ i, x i = r i) (i : Arr.Idx) :
    ∃ S : ℝ, 0 < S ∧ rowSum x i = (S : EReal) := by
  refine ⟨∑ k : Fin 4096, Real.exp (r (ix2 (i 0) k)), ?_, ?_⟩
  · exact Finset.sum_pos (fun k _ => Real.exp_pos _) ⟨⟨0, by decide⟩, Finset.mem_univ _⟩
  · unfold rowSum
    rw [← coe_sum]
    exact Finset.sum_congr rfl fun k _ => by rw [hr, Ideal.exp_coe]

/-- THE LAW: over real entries, multiplying by the reciprocal of the row sum is dividing by the row sum. -/
theorem scaled_eq_quotient (x : Arr.Idx → EReal) (hx : ∀ i, ∃ r : ℝ, x i = r) : scaled x = quotient x := by
  choose r hr using hx
  funext i
  obtain ⟨S, hS, hsum⟩ := rowSum_real x r hr i
  unfold scaled quotient
  rw [hsum, zero_add, Ideal.div_coe hS.ne', Ideal.div_coe hS.ne', one_mul]

/-- An extended real whose absolute value is below `+∞` is a real number. -/
theorem real_of_abs_lt_top (a : EReal) (h : max a (-a) < ⊤) : ∃ r : ℝ, a = r := by
  induction a using EReal.rec with
  | bot => simp at h
  | coe r => exact ⟨r, rfl⟩
  | top => simp at h

/-- The pattern of the float 1.0 denotes the number one. -/
theorem ofBits_one : Ideal.ofBits .f32 0x3F800000#32 = 1 := IdealRules.sign_bit.ideal_onePat .f32

/-- The pattern of the float +inf denotes `+∞`. -/
theorem ofBits_inf : Ideal.ofBits .f32 0x7F800000#32 = ⊤ := by simp [Ideal.ofBits, Ideal.ieee]

end Cert.RowNormalize

end
-- ==== Proof.FiniteEntries.lean ====
/-
  The precondition, read back: the predicate is "the absolute value of every entry is below +inf", folded over the whole
  array by a conjunction. If it holds, every entry of the array is a real number (neither `+∞` nor `-∞`).
-/
import proofs.«401832_j54640573940343_3_alg».proof.Pre_finite_inputs
import proofs.«401832_j54640573940343_3_alg».proof.Proof.Gen.Pre_finite_inputs
import proofs.«401832_j54640573940343_3_alg».proof.Proof.RowNormalize
import Idealize.ShloMosaic.Lib.ReduceAll
import Idealize.ShloMosaic.PureOps.Ideal.Laws

noncomputable section

namespace Cert.FiniteEntries

open Idealize.ShloMosaic Idealize.ShloMosaic.ValueIdx
open Cert.RowNormalize

/-- A rank-0 shape has one index. -/
instance : Subsingleton Cert.Pre_finite_inputs.S_.Idx := ⟨fun a b => funext fun d => d.elim0⟩

/-- Under the precondition every entry is a real number: the conjunction over the array gives the comparison at each
    entry, the comparison says `max a (-a) < +∞`, and an extended real of finite absolute value is real. -/
theorem real_of_pre (x : FVec Ideal Cert.Pre_finite_inputs.S16384x4096 .f32)
    (h : Cert.Pre_finite_inputs.fn (F := Ideal) x = fun _ => 1#1) (i : Cert.Pre_finite_inputs.S16384x4096.Idx) :
    ∃ r : ℝ, x i = r := by
  have h0 := congrFun h ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  refine real_of_abs_lt_top (x i) ?_
  by_contra hn
  simp [Ideal.cmp, hn] at hc

end Cert.FiniteEntries

end
-- ==== Proof.KernelRows.lean ====
/-
  What the kernel leaves in its output array, at the ideal values.

  The grid has 64 points; point `t` stages rows `256 t … 256 t + 255` of the argument (all 4096 columns) and writes the same
  rows of the result. Inside a block the body takes the exponential of every entry, sums each row of the block — a whole
  row of the array, since a block spans all columns —, takes the reciprocal of that sum and multiplies it back in. So entry
  `(256 t + p, q)` of the result is `exp x(256 t + p, q) * (1 / ∑ k, exp x(256 t + p, k))`: the function `scaled` of the
  argument array, read through the block. The 64 blocks tile the rows (row `r` lies in block `r / 256`), so the whole
  result array is `scaled` of the argument.
-/
import proofs.«401832_j54640573940343_3_alg».proof.Proof.Gen.KernelIdeal.Value
import proofs.«401832_j54640573940343_3_alg».proof.Proof.RowNormalize
import Idealize.ShloMosaic.PureOps.Ideal.Laws
import Idealize.ShloMosaic.Lib.ValueIdx
import Idealize.ShloMosaic.Lib.Pipeline.Value

noncomputable section

namespace Cert.KernelRows

open Cert.KernelIdeal Cert.KernelIdeal.Gen Idealize.ShloMosaic Idealize.ShloMosaic.TcCoe Idealize.SL.Sem
open Idealize.ShloMosaic.ValueIdx
open Idealize.ShloMosaic.Pipeline (Dat)
open Cert.RowNormalize

/-! ## One block -/

/-- The body's access rectangle starts at the block's origin. -/
theorem origin : (![0, 0] : Fin 2 → Nat) = fun _ => 0 := funext fun a => by fin_cases a <;> rfl

/-- ONE BLOCK'S ENTRY. Let the block `P0` be the array `X` read through an embedding `e` that shifts the row by a
    constant `B` and keeps the column. Then entry `y` of what the body computes from `P0` is `scaled X` at `e y`: the
    lane sum over the block's row `y 0` runs over the entries `(B + y 0, k)` of `X`, which is the whole row of `e y`. -/
theorem block_entry (P0 : Vec Ideal S256x4096 .f32) (X : S16384x4096.Idx → EReal) (e : S256x4096.Idx → S16384x4096.Idx) (B : Nat)
    (hP : ∀ z, P0 z = X (e z)) (he0 : ∀ z, ((e z) 0).val = B + (z 0).val) (he1 : ∀ z, ((e z) 1).val = (z 1).val)
    (y : S256x4096.Idx) : Cert.KernelIdeal.Value.E1 (F := Ideal) P0 y = scaled X (e y) := by
  have hy : Cert.KernelIdeal.Value.ix1_0 y = y :=
    funext fun a => Fin.ext (by match a with | ⟨0, _⟩ => rfl | ⟨1, _⟩ => rfl)
  have hsum : multiReduction (F := Ideal) .add [1] S256 (exp P0) 0x00000000#32 reduces_S256x4096_S256 (.inl rfl) rfl (Cert.KernelIdeal.Value.ix1_1 y)
      = rowSum X (e y) := by
    refine (Ideal.multiReduction_add_single (exp P0) 0x00000000#32 reduces_S256x4096_S256 (.inl rfl) rfl
      (Cert.KernelIdeal.Value.ix1_1 y)).trans ?_
    unfold rowSum
    refine Finset.sum_congr rfl fun k _ => ?_
    show Ideal.exp (P0 (reduces_S256x4096_S256.lift (Cert.KernelIdeal.Value.ix1_1 y) k)) = _
    rw [hP]
    refine congrArg (fun z => Ideal.exp (X z)) (funext fun a => Fin.ext ?_)
    match a with
    | ⟨0, _⟩ => exact (he0 _).trans (he0 y).symm
    | ⟨1, _⟩ => exact he1 _
  show Ideal.exp (P0 (Cert.KernelIdeal.Value.ix1_0 y))
      * Ideal.div (Ideal.ofBits .f32 0x3F800000#32)
          (multiReduction (F := Ideal) .add [1] S256 (exp P0) 0x00000000#32 reduces_S256x4096_S256 (.inl rfl) rfl (Cert.KernelIdeal.Value.ix1_1 y))
    = Ideal.exp (X (e y)) * Ideal.div 1 (rowSum X (e y))
  rw [hy, hP, ofBits_one, hsum]

/-! ## The grid -/

variable (m : (ℓ : Loc nD τ sig) → Buf (Elt Ideal) ℓ) (ρ : Dev nD → PrngReg)

/-- The index maps, decided over the 64 points: both windows take block row `t` and block column `0`. -/
theorem idx_facts : ∀ t : Fin cfg0.N, win0_1.index t (0 : Fin 2) = t.val ∧ win0_1.index t (1 : Fin 2) = 0
    ∧ win0_0.index t (0 : Fin 2) = t.val ∧ win0_0.index t (1 : Fin 2) = 0 :=
  (by decide +kernel : ∀ t : Fin grid0.N, _)

/-- WHAT POINT `t` WRITES BACK is block `t` of `scaled` of the argument array. -/
theorem flushed_eq (c : Dev nD) (t : Fin cfg0.N) :
    (dats m 0 c).flushed 1 t = ((cfg0.win 1).blk t).view.read (Elt Ideal) (scaled (V m c main_arg0)) := by
  obtain ⟨e0, e1, e2, e3⟩ := idx_facts t
  rw [Cert.KernelIdeal.Value.flushed1]
  unfold out0_1
  simp only [View.ld_unit_zero (S := S256x4096) origin]
  funext j
  show (View.canon [⟨r0_0, k0_pay1 (iblk m c 0 t)⟩] : Vec Ideal S256x4096 .f32) j = scaled (V m c main_arg0) (((cfg0.win 1).blk t).view.emb j)
  rw [Cert.KernelIdeal.Value.canon1_eq]
  refine block_entry (iblk m c 0 t) (V m c main_arg0) (((cfg0.win 1).blk t).view.emb) (win0_1.index t (0 : Fin 2) * 256) ?_ ?_ ?_ j
  · intro z
    show V m c main_arg0 (((cfg0.win 0).blk t).view.emb z) = V m c main_arg0 (((cfg0.win 1).blk t).view.emb z)
    refine congrArg (V m c main_arg0) (funext fun a => Fin.ext ?_)
    match a with
    | ⟨0, _⟩ =>
      show win0_0.index t (0 : Fin 2) * 256 + 1 * (z 0).val = win0_1.index t (0 : Fin 2) * 256 + 1 * (z 0).val
      omega
    | ⟨1, _⟩ =>
      show win0_0.index t (1 : Fin 2) * 4096 + 1 * (z 1).val = win0_1.index t (1 : Fin 2) * 4096 + 1 * (z 1).val
      omega
  · intro z
    show win0_1.index t (0 : Fin 2) * 256 + 1 * (z 0).val = win0_1.index t (0 : Fin 2) * 256 + (z 0).val
    omega
  · intro z
    show win0_1.index t (1 : Fin 2) * 4096 + 1 * (z 1).val = (z 1).val
    omega

/-- An index of the array lies in point `t`'s block iff each coordinate lies in the block's range on its axis. -/
theorem mem_blk (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- THE BLOCKS TILE THE ARRAY: row `r` lies in the block of point `r / 256`. -/
theorem cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have ht : (i 0).val / 256 < cfg0.N := by show (i 0).val / 256 < 64; omega
  obtain ⟨e0, e1, -, -⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_1.index ⟨(i 0).val / 256, ht⟩ (1 : Fin 2) * 4096 ≤ (i 1).val
      ∧ (i 1).val < win0_1.index ⟨(i 0).val / 256, ht⟩ (1 : Fin 2) * 4096 + 4096
    rw [e1]
    omega

/-- THE RESULT ARRAY after the run is `scaled` of the argument array. -/
theorem final (c : Dev nD) : (dats m 0 c).arrAt 1 cfg0.N = scaled (m ((c : Thread nD τ).loc main_arg0)) :=
  (dats m 0 c).arrAt_eq_of_cover 1 (scaled (V m c main_arg0)) (fun t _ => flushed_eq m c t) cover

/-- THE RUN: every weakly fair execution ends with the result array at `scaled` of the argument, the argument unchanged. -/
theorem run : θ_run defs (onTc (τ := τ) (main (F := Ideal))) ⟨m, fun _ => 0, ρ⟩ fun r => ∀ c : Dev nD,
      r.2.mem ((c : Thread nD τ).loc main_v0) = scaled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelRows

end
-- ==== Proof.ReferenceRows.lean ====
/-
  The host program's result, read index by index at the ideal values: entry `i` of the result is the exponential of entry
  `i` of the argument divided by the sum — folded from the constant zero — of the exponentials along the row of `i`. The
  two broadcasts only carry the row's sum back to every column of that row, so the index the sum is taken at is `(i 0, k)`.
-/
import proofs.«401832_j54640573940343_3_alg».proof.Proof.Gen.ReferenceIdeal.Read
import proofs.«401832_j54640573940343_3_alg».proof.Proof.RowNormalize

noncomputable section

namespace Cert.ReferenceRows

open Cert.ReferenceIdeal Cert.ReferenceIdeal.Read Idealize.ShloMosaic Idealize.ShloMosaic.ValueIdx
open Cert.RowNormalize

/-- Through the two broadcasts and the reduction, entry `i` of the divisor reads the exponentials at `(i 0, k)`. -/
theorem row_index (i : S16384x4096.Idx) (k : Fin 4096) :
    idx_main_v1 (idx_main_v2 (idx_main_v3 i)) k = ix2 (i 0) k :=
  funext fun a => Fin.ext (by match a with | ⟨0, _⟩ => rfl | ⟨1, _⟩ => rfl)

/-- The host program's result is the entrywise quotient by the row sums. -/
theorem result_eq_quotient (x : (⟨S16384x4096, .f32⟩ : BufTy).Contents (Elt Ideal)) :
    val_main_v4 (F := Ideal) x = quotient x := by
  funext i
  rw [val_main_v4_apply, val_main_v3_apply, val_main_v2_apply, val_main_v1_apply, val_main_cst_apply]
  simp only [val_main_v0_apply, row_index, Ideal.hostDivf_def, Ideal.hostUnary_exp_def, Ideal.ofBits_def,
    Ideal.ofBits_zero_f32]
  rfl

end Cert.ReferenceRows

end
-- ==== Proof.lean ====
/-
  Row-wise softmax without the max subtraction, over f32[16384, 4096]: the kernel against the host reference.

  The kernel runs a grid of 64 points over blocks of 256 whole rows; in each block it takes the exponential of every
  entry, sums each row, takes the reciprocal of the sum once per row and multiplies it back in: entry `(r, c)` of its
  result is `exp x(r, c) * (1 / ∑ k, exp x(r, k))` (Proof/KernelRows.lean). The reference divides each exponential by its
  row's sum: `exp x(r, c) / (0 + ∑ k, exp x(r, k))` (Proof/ReferenceRows.lean). At the ideal values these are equal when
  every entry of `x` is a real number — which the precondition says (Proof/FiniteEntries.lean) —, because a row's sum of
  exponentials is then a positive real and dividing by it is multiplying by its reciprocal (Proof/RowNormalize.lean). No
  operation was rewritten by the idealization, so the kernel's idealization is the kernel's own text read at the ideal
  values; the three frames are the programs' runs with the results dropped.
-/
import proofs.«401832_j54640573940343_3_alg».proof.Defs
import proofs.«401832_j54640573940343_3_alg».proof.Proof.Gen.Kernel
import proofs.«401832_j54640573940343_3_alg».proof.Proof.Gen.Kernel.Skeleton
import proofs.«401832_j54640573940343_3_alg».proof.Proof.Gen.Kernel.Launch
import proofs.«401832_j54640573940343_3_alg».proof.Proof.Gen.Kernel.Points
import proofs.«401832_j54640573940343_3_alg».proof.Proof.Gen.Kernel.Frame
import proofs.«401832_j54640573940343_3_alg».proof.Proof.Gen.KernelIdeal
import proofs.«401832_j54640573940343_3_alg».proof.Proof.Gen.KernelIdeal.Skeleton
import proofs.«401832_j54640573940343_3_alg».proof.Proof.Gen.KernelIdeal.Launch
import proofs.«401832_j54640573940343_3_alg».proof.Proof.Gen.KernelIdeal.Points
import proofs.«401832_j54640573940343_3_alg».proof.Proof.Gen.KernelIdeal.Frame
import proofs.«401832_j54640573940343_3_alg».proof.Proof.Gen.ReferenceIdeal
import proofs.«401832_j54640573940343_3_alg».proof.Proof.Gen.Pre_finite_inputs
import proofs.«401832_j54640573940343_3_alg».proof.Proof.Gen.KernelIdeal.Value
import proofs.«401832_j54640573940343_3_alg».proof.Proof.Gen.ReferenceIdeal.Run
import proofs.«401832_j54640573940343_3_alg».proof.Proof.Gen.ReferenceIdeal.Read
import proofs.«401832_j54640573940343_3_alg».proof.Proof.RowNormalize
import proofs.«401832_j54640573940343_3_alg».proof.Proof.FiniteEntries
import proofs.«401832_j54640573940343_3_alg».proof.Proof.KernelRows
import proofs.«401832_j54640573940343_3_alg».proof.Proof.ReferenceRows
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same array: the kernel with each exponential times the reciprocal of its row's sum, the
    reference with each exponential divided by its row's sum, of arguments that agree and whose entries are all real. -/
theorem algebraic : Cert.algebraic_KernelIdeal_ReferenceIdeal := by
  intro m ρ m' ρ' hpre hagree
  refine ⟨_, Cert.KernelRows.run m ρ, ?_⟩
  refine (θ_run Cert.ReferenceIdeal.defs _ _).mono (fun _ h c => ⟨(h c).1.trans ?_, (h c).2⟩)
    (Cert.ReferenceIdeal.Value.run (F := Ideal) m' ρ')
  have hreal := Cert.FiniteEntries.real_of_pre _ (hpre c)
  rw [Cert.RowNormalize.scaled_eq_quotient _ hreal]
  exact ((Cert.ReferenceIdeal.Read.val_main_v4_eq _).trans (Cert.ReferenceRows.result_eq_quotient _)).trans
    (congrArg Cert.RowNormalize.quotient (hagree c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
